-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x3x128 : Shape := ⟨3, ![262144, 3, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x3x128 : S_.BroadcastsInDim S262144x3x128 (![] : Fin 0 → Fin S262144x3x128.rank)
  reducesTo_S262144x3x128_S_d0_1_2 : S262144x3x128.ReducesTo [0, 1, 2] S_

variable [Facts]

def fn_part1 {F : FTy → Type} [FloatOps F] (main_v13 : IVec S_ 1) (main_v16 : IVec S262144x3x128 1) : IVec S_ 1 :=
  let main_c_5 : IVec S_ 1 := constantI S_ 1 1#1
  let main_v17 : IVec S_ 1 := (fun x v => Host.reduce IntOp.andi x v reducesTo_S262144x3x128_S_d0_1_2 h_S_) main_v16 main_c_5
  let main_v18 : IVec S_ 1 := andi main_v13 main_v17
  main_v18

def fn {F : FTy → Type} [FloatOps F] (main_arg0 : FVec F S262144x128 .f32) (main_arg1 : FVec F S262144x3x128 .f32) (main_arg2 : FVec F S262144x128 .f32) (main_arg3 : FVec F S262144x3x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x3x128 .f32 := Host.absf main_arg1
  let main_cst_0 : FVec F S_ .f32 := constant S_ .f32 0x7F800000#32
  let main_v5 : FVec F S262144x3x128 .f32 := broadcastInDim S262144x3x128 ![] bcast_S_S262144x3x128 main_cst_0
  let main_v6 : IVec S262144x3x128 1 := cmpf .olt main_v4 main_v5
  let main_c_1 : IVec S_ 1 := constantI S_ 1 1#1
  let main_v7 : IVec S_ 1 := (fun x v => Host.reduce IntOp.andi x v reducesTo_S262144x3x128_S_d0_1_2 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x3x128 .f32 := Host.absf main_arg3
  let main_cst_4 : FVec F S_ .f32 := constant S_ .f32 0x7F800000#32
  let main_v15 : FVec F S262144x3x128 .f32 := broadcastInDim S262144x3x128 ![] bcast_S_S262144x3x128 main_cst_4
  let main_v16 : IVec S262144x3x128 1 := cmpf .olt main_v14 main_v15
  fn_part1 (F := F) main_v13 main_v16
-- ==== Kernel.lean ====
abbrev S262144x128 : Shape := ⟨2, ![262144, 128]⟩
abbrev S262144x3x128 : Shape := ⟨3, ![262144, 3, 128]⟩
abbrev S262144x256 : Shape := ⟨2, ![262144, 256]⟩
abbrev S2048x128 : Shape := ⟨2, ![2048, 128]⟩
abbrev S2048x3x128 : Shape := ⟨3, ![2048, 3, 128]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x3x128, .f32⟩
  | .hbm, ⟨2, _⟩ => ⟨S262144x128, .f32⟩
  | .hbm, ⟨3, _⟩ => ⟨S262144x3x128, .f32⟩
  | .hbm, ⟨4, _⟩ => ⟨S262144x256, .f32⟩
  | .local _ .vmem, ⟨0, _⟩ => ⟨S2048x128, .f32⟩
  | .local _ .vmem, ⟨1, _⟩ => ⟨S2048x128, .f32⟩
  | .local _ .vmem, ⟨2, _⟩ => ⟨S2048x3x128, .f32⟩
  | .local _ .vmem, ⟨3, _⟩ => ⟨S2048x3x128, .f32⟩
  | .local _ .vmem, ⟨4, _⟩ => ⟨S2048x128, .f32⟩
  | .local _ .vmem, ⟨5, _⟩ => ⟨S2048x128, .f32⟩
  | .local _ .vmem, ⟨6, _⟩ => ⟨S2048x3x128, .f32⟩
  | .local _ .vmem, ⟨7, _⟩ => ⟨S2048x3x128, .f32⟩
  | .local _ .vmem, ⟨8, _⟩ => ⟨S2048x256, .f32⟩
  | .local _ .vmem, ⟨9, _⟩ => ⟨S2048x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  inb_S2048x3x128_S2048x3x128_0_0_0 : ∀ a, (![0, 0, 0] : Fin 3 → Nat) a + S2048x3x128.size a ≤ S2048x3x128.size a
  h_S2048x3x128 : 0 < S2048x3x128.numel
  reduces_S2048x3x128_S2048x128 : S2048x3x128.Reduces [1] S2048x128
  inb_S2048x256_S2048x128_0_0 : ∀ a, (![0, 0] : Fin 2 → Nat) a + S2048x128.size a ≤ S2048x256.size a
  inb_S2048x256_S2048x128_0_128 : ∀ a, (![0, 128] : Fin 2 → Nat) a + S2048x128.size a ≤ S2048x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3x128.size a ≤ S262144x3x128.size a
  hwx0_1 : ∀ i : grid0.Coords, EltTy.bits .f32 = 32 ∨ (Rect.block (s := S262144x3x128) S2048x3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3x128.size a ≤ S262144x3x128.size a
  hwx0_3 : ∀ i : grid0.Coords, EltTy.bits .f32 = 32 ∨ (Rect.block (s := S262144x3x128) S2048x3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x3x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x3x128 : Shape := ⟨3, ![262144, 3, 128]⟩
abbrev S_ : Shape := ⟨0, ![]⟩
abbrev S262144x256 : Shape := ⟨2, ![262144, 256]⟩

abbrev nBuf : Space → Nat
  | .hbm => 9
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x3x128, .f32⟩
  | .hbm, ⟨2, _⟩ => ⟨S262144x128, .f32⟩
  | .hbm, ⟨3, _⟩ => ⟨S262144x3x128, .f32⟩
  | .hbm, ⟨4, _⟩ => ⟨S262144x128, .f32⟩
  | .hbm, ⟨5, _⟩ => ⟨S262144x3x128, .f32⟩
  | .hbm, ⟨6, _⟩ => ⟨S_, .f32⟩
  | .hbm, ⟨7, _⟩ => ⟨S262144x128, .f32⟩
  | .hbm, ⟨8, _⟩ => ⟨S262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  reducesTo_S262144x3x128_S262144x128_d1 : S262144x3x128.ReducesTo [1] S262144x128
  h_S_ : 0 < S_.numel
  concatenates_S262144x128_S262144x128_S262144x256_d1 : Shape.Concatenates [S262144x128, S262144x128] S262144x256 1

variable [Facts₀]

class Facts : Prop extends Facts₀ where

variable [Facts]
-- ==== Proof.DegreeZero.lean ====
/-
  The mathematics both programs compute, as ONE function of the four argument arrays.

  Every token row carries a scalar feature (128 channels) and a vector feature (3 components by 128 channels), once
  for the left factor and once for the right. The degree-zero part of their tensor product has, per row, 256
  channels: in the first 128 the product of the two scalars, channel by channel; in the last 128 the inner product
  of the two vectors over their 3 components, channel by channel. Nothing mixes rows or channels, so the same
  formula serves a block of rows and the whole array: it is stated for any number `R` of rows.

  On the extended reals the formula uses only products and a three-term sum, so it needs no finiteness: a sum of
  extended reals does not depend on how it is grouped, and adding zero in front changes nothing.
-/
import Idealize.ShloMosaic.PureOps.Ideal
import Idealize.ShloMosaic.Lib.ValueIdx

noncomputable section

namespace Cert.DegreeZero

open Idealize.ShloMosaic Idealize.ShloMosaic.ValueIdx

/-- The channel a result column speaks of: the column itself in the first half (columns below 128), the column
    less 128 in the second half; in both cases the column's remainder by 128. -/
abbrev chan (n : Nat) : Fin 128 := ⟨n % 128, Nat.mod_lt _ (by norm_num)⟩

/-- The degree-zero tensor product of `R` rows: at row `r` and column `n`, the product of the two scalars of
    channel `n` when `n < 128`, and otherwise the sum over the three components `k` of the products of the two
    vectors' entries of channel `n - 128`. -/
def degreeZero (R : Nat) (s s' : (⟨2, ![R, 128]⟩ : Shape).Idx → EReal) (v v' : (⟨3, ![R, 3, 128]⟩ : Shape).Idx → EReal) :
    (⟨2, ![R, 256]⟩ : Shape).Idx → EReal := fun i =>
  if (i 1).val < 128 then s (ix2 (i 0) (chan (i 1).val)) * s' (ix2 (i 0) (chan (i 1).val))
  else ∑ k : Fin 3, v (ix3 (i 0) k (chan (i 1).val)) * v' (ix3 (i 0) k (chan (i 1).val))

/-- In the first half the result is the product of the scalars. -/
theorem degreeZero_left (R : Nat) (s s' : (⟨2, ![R, 128]⟩ : Shape).Idx → EReal) (v v' : (⟨3, ![R, 3, 128]⟩ : Shape).Idx → EReal)
    (i : (⟨2, ![R, 256]⟩ : Shape).Idx) (h : (i 1).val < 128) :
    degreeZero R s s' v v' i = s (ix2 (i 0) (chan (i 1).val)) * s' (ix2 (i 0) (chan (i 1).val)) := if_pos h

/-- In the second half it is the inner product of the vectors. -/
theorem degreeZero_right (R : Nat) (s s' : (⟨2, ![R, 128]⟩ : Shape).Idx → EReal) (v v' : (⟨3, ![R, 3, 128]⟩ : Shape).Idx → EReal)
    (i : (⟨2, ![R, 256]⟩ : Shape).Idx) (h : ¬ (i 1).val < 128) :
    degreeZero R s s' v v' i = ∑ k : Fin 3, v (ix3 (i 0) k (chan (i 1).val)) * v' (ix3 (i 0) k (chan (i 1).val)) := if_neg h

/-- Rows do not interact: if a 2048-row block's row `j 0` holds what the 262144-row arrays hold in row `i 0` (for the
    scalars at every channel, for the vectors at every component and channel) and `j` and `i` name the same column,
    then the block's tensor product at `j` is the arrays' at `i`. -/
theorem degreeZero_of_rows
    (s s' : (⟨2, ![2048, 128]⟩ : Shape).Idx → EReal) (v v' : (⟨3, ![2048, 3, 128]⟩ : Shape).Idx → EReal)
    (S S' : (⟨2, ![262144, 128]⟩ : Shape).Idx → EReal) (V V' : (⟨3, ![262144, 3, 128]⟩ : Shape).Idx → EReal)
    (j : (⟨2, ![2048, 256]⟩ : Shape).Idx) (i : (⟨2, ![262144, 256]⟩ : Shape).Idx)
    (hcol : (i 1).val = (j 1).val)
    (hs : ∀ q : Fin 128, s (ix2 (j 0) q) = S (ix2 (i 0) q))
    (hs' : ∀ q : Fin 128, s' (ix2 (j 0) q) = S' (ix2 (i 0) q))
    (hv : ∀ (k : Fin 3) (q : Fin 128), v (ix3 (j 0) k q) = V (ix3 (i 0) k q))
    (hv' : ∀ (k : Fin 3) (q : Fin 128), v' (ix3 (j 0) k q) = V' (ix3 (i 0) k q)) :
    degreeZero 2048 s s' v v' j = degreeZero 262144 S S' V V' i := by
  unfold degreeZero
  rw [hcol]
  by_cases h : (j 1).val < 128
  · rw [if_pos h, if_pos h, hs, hs']
  · rw [if_neg h, if_neg h]
    exact Finset.sum_congr rfl fun k _ => by rw [hv, hv']

end Cert.DegreeZero

end
-- ==== Proof.BlockValue.lean ====
/-
  What the kernel body leaves in its output block, at the ideal instance, is the degree-zero tensor product of the
  four input blocks (2048 rows each).

  The body stores two pieces that tile the 2048 by 256 block: the left half (columns 0 to 127) holds the pointwise
  product of the two scalar blocks, the right half (columns 128 to 255) the sum over the middle axis (the three
  vector components) of the pointwise product of the two vector blocks. Read at an index, the left piece at (p, q)
  is s(p, q) · s'(p, q) and the right piece at (p, q) is the sum over k of v(p, k, q) · v'(p, k, q), which is the
  formula's value at column 128 + q.
-/
import proofs.«142776_j9062380994709_1_alg».proof.Proof.Gen.KernelIdeal.Frame
import proofs.«142776_j9062380994709_1_alg».proof.Proof.DegreeZero
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen Idealize.ShloMosaic Idealize.ShloMosaic.TcCoe Idealize.ShloMosaic.ValueIdx
open Cert.DegreeZero

theorem zeros2 : (![0, 0] : Fin 2 → Nat) = fun _ => 0 := funext fun a => by fin_cases a <;> rfl
theorem zeros3 : (![0, 0, 0] : Fin 3 → Nat) = fun _ => 0 := funext fun a => by fin_cases a <;> rfl

/-- The scalar piece at (p, q): the product of the two scalar blocks there. -/
theorem scalar_piece (x0 x2 : Vec Ideal S2048x128 .f32) (p : Fin 2048) (q : Fin 128) :
    k0_pay1 (F := Ideal) x0 x2 (ix2 p q) = x0 (ix2 p q) * x2 (ix2 p q) := rfl

/-- The vector piece at (p, q): the sum over the three components of the products of the two vector blocks. -/
theorem vector_piece (x1 x3 : Vec Ideal S2048x3x128 .f32) (p : Fin 2048) (q : Fin 128) :
    k0_pay2 (F := Ideal) x1 x3 (ix2 p q) = ∑ k : Fin 3, x1 (ix3 p k q) * x3 (ix3 p k q) := by
  unfold k0_pay2
  refine (Ideal.multiReduction_add_single (mulf x1 x3) 0x00000000#32 reduces_S2048x3x128_S2048x128 (.inl rfl) rfl (ix2 p q)).trans ?_
  refine Finset.sum_congr rfl fun k _ => ?_
  have e : reduces_S2048x3x128_S2048x128.lift (ix2 p q) k = ix3 p k q :=
    funext fun a => Fin.ext (by match a with | ⟨0, _⟩ => rfl | ⟨1, _⟩ => rfl | ⟨2, _⟩ => rfl)
  rw [e]; rfl

/-- The output block after the body is the degree-zero tensor product of the four input blocks: each of the two
    stored pieces agrees with the formula on its half, and the two halves tile the block. -/
theorem out_block (x0 x2 : Vec Ideal S2048x128 .f32) (x1 x3 : Vec Ideal S2048x3x128 .f32) :
    out0_4 (F := Ideal) x0 x1 x2 x3 = degreeZero 2048 x0 x2 x1 x3 := by
  funext y
  unfold out0_4
  rw [View.ld_unit_zero (S := S2048x3x128) zeros3, View.ld_unit_zero (S := S2048x3x128) zeros3,
    View.ld_unit_zero (S := S2048x128) zeros2, View.ld_unit_zero (S := S2048x128) zeros2]
  refine View.canon_apply_of_pieces (Val := Elt Ideal) (degreeZero 2048 x0 x2 x1 x3) _ ?_ y (cover0_4 _ _ y)
  intro p hp x
  simp only [List.mem_cons, List.not_mem_nil, or_false] at hp
  rcases hp with rfl | rfl
  · -- the right half: columns 128 + q
    obtain ⟨a, b, rfl⟩ : ∃ (a : Fin 2048) (b : Fin 128), x = ix2 a b := ⟨x 0, x 1, eq_ix2 x⟩
    refine (vector_piece x1 x3 a b).trans (Eq.symm ?_)
    refine (degreeZero_right 2048 x0 x2 x1 x3 _ (by show ¬ (128 + 1 * b.val < 128); omega)).trans ?_
    refine Finset.sum_congr rfl fun k _ => ?_
    have e : (ix3 ((r0_3.emb (ix2 a b)) 0) k (chan ((r0_3.emb (ix2 a b)) 1).val) : S2048x3x128.Idx) = ix3 a k b :=
      funext fun d => Fin.ext (by
        match d with
        | ⟨0, _⟩ => show 0 + 1 * a.val = a.val; omega
        | ⟨1, _⟩ => rfl
        | ⟨2, _⟩ => show (128 + 1 * b.val) % 128 = b.val; have := b.isLt; omega)
    rw [e]
  · -- the left half: columns q
    obtain ⟨a, b, rfl⟩ : ∃ (a : Fin 2048) (b : Fin 128), x = ix2 a b := ⟨x 0, x 1, eq_ix2 x⟩
    refine (scalar_piece x0 x2 a b).trans (Eq.symm ?_)
    refine (degreeZero_left 2048 x0 x2 x1 x3 _ (by show 0 + 1 * b.val < 128; have := b.isLt; omega)).trans ?_
    have e : (ix2 ((r0_2.emb (ix2 a b)) 0) (chan ((r0_2.emb (ix2 a b)) 1).val) : S2048x128.Idx) = ix2 a b :=
      funext fun d => Fin.ext (by
        match d with
        | ⟨0, _⟩ => show 0 + 1 * a.val = a.val; omega
        | ⟨1, _⟩ => show (0 + 1 * b.val) % 128 = b.val; have := b.isLt; omega)
    rw [e]

end Cert.KernelIdeal.BlockValue

end
-- ==== Proof.ArrayValue.lean ====
/-
  From blocks to the array: after the kernel's run the result array is the degree-zero tensor product of the four
  argument arrays.

  The grid has 128 points; at point t every window's block is rows 2048·t to 2048·t + 2047 of its array, all of
  the other axes. So what point t writes back — the tensor product of the four input blocks — is rows 2048·t to
  2048·t + 2047 of the tensor product of the whole arrays, because rows do not interact; and since every row r of
  the result lies in the block of the point r / 2048, the blocks written back fill the whole result array.
-/
import proofs.«142776_j9062380994709_1_alg».proof.Proof.Gen.KernelIdeal.Value
import proofs.«142776_j9062380994709_1_alg».proof.Proof.BlockValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.DegreeZero

variable (m : (ℓ : Loc nD τ sig) → Buf (Elt Ideal) ℓ) (ρ : Dev nD → PrngReg)

/-- The four input blocks at a point, and the four argument arrays, at their literal types. -/
abbrev sBlk (c : Dev nD) (t : Fin cfg0.N) : Vec Ideal S2048x128 .f32 := iblk m c 0 t
abbrev vBlk (c : Dev nD) (t : Fin cfg0.N) : Vec Ideal S2048x3x128 .f32 := iblk m c 1 t
abbrev sBlk' (c : Dev nD) (t : Fin cfg0.N) : Vec Ideal S2048x128 .f32 := iblk m c 2 t
abbrev vBlk' (c : Dev nD) (t : Fin cfg0.N) : Vec Ideal S2048x3x128 .f32 := iblk m c 3 t
abbrev sArr (c : Dev nD) : Vec Ideal S262144x128 .f32 := V m c main_arg0
abbrev vArr (c : Dev nD) : Vec Ideal S262144x3x128 .f32 := V m c main_arg1
abbrev sArr' (c : Dev nD) : Vec Ideal S262144x128 .f32 := V m c main_arg2
abbrev vArr' (c : Dev nD) : Vec Ideal S262144x3x128 .f32 := V m c main_arg3

/-- The tensor product of the whole argument arrays. -/
abbrev wholeProd (c : Dev nD) : S262144x256.Idx → EReal := degreeZero 262144 (sArr m c) (sArr' m c) (vArr m c) (vArr' m c)

/-- The printed index maps over the grid: on the row axis every input window's block index is the output window's,
    on every other axis it is 0. -/
theorem index_facts : ∀ t : Fin cfg0.N,
    win0_0.index t (0 : Fin 2) = win0_4.index t (0 : Fin 2) ∧ win0_0.index t (1 : Fin 2) = 0
    ∧ win0_1.index t (0 : Fin 3) = win0_4.index t (0 : Fin 2) ∧ win0_1.index t (1 : Fin 3) = 0 ∧ win0_1.index t (2 : Fin 3) = 0
    ∧ win0_2.index t (0 : Fin 2) = win0_4.index t (0 : Fin 2) ∧ win0_2.index t (1 : Fin 2) = 0
    ∧ win0_3.index t (0 : Fin 3) = win0_4.index t (0 : Fin 2) ∧ win0_3.index t (1 : Fin 3) = 0 ∧ win0_3.index t (2 : Fin 3) = 0
    ∧ win0_4.index t (1 : Fin 2) = 0 :=
  (by decide +kernel : ∀ t : Fin grid0.N, _)

/-- Every row block of the result is some point's. -/
theorem index_onto : ∀ b : Fin 128, ∃ t : Fin cfg0.N, win0_4.index t = ![b.val, 0] :=
  (by decide +kernel : ∀ b : Fin 128, ∃ t : Fin grid0.N, win0_4.index t = ![b.val, 0])

/-- What point `t` writes back is block `t` of the whole arrays' tensor product. -/
theorem flushed_eq (c : Dev nD) (t : Fin cfg0.N) :
    (dats m 0 c).flushed 4 t = ((cfg0.win 4).blk t).view.read (Elt Ideal) (wholeProd m c) := by
  rw [Value.flushed4]
  obtain ⟨e00, e01, e10, e11, e12, e20, e21, e30, e31, e32, e41⟩ := index_facts t
  funext j
  show out0_4 (sBlk m c t) (vBlk m c t) (sBlk' m c t) (vBlk' m c t) j = wholeProd m c (((cfg0.win 4).blk t).view.emb j)
  refine (congrFun (BlockValue.out_block (sBlk m c t) (sBlk' m c t) (vBlk m c t) (vBlk' m c t)) j).trans ?_
  refine degreeZero_of_rows (sBlk m c t) (sBlk' m c t) (vBlk m c t) (vBlk' m c t) (sArr m c) (sArr' m c) (vArr m c) (vArr' m c)
    j (((cfg0.win 4).blk t).view.emb j) ?_ ?_ ?_ ?_ ?_
  · show win0_4.index t (1 : Fin 2) * 256 + 1 * (j 1).val = (j 1).val
    omega
  · intro q
    show V m c main_arg0 (((cfg0.win 0).blk t).view.emb (ix2 (j 0) q)) = V m c main_arg0 (ix2 ((((cfg0.win 4).blk t).view.emb j) 0) q)
    refine congrArg (V m c main_arg0) (funext fun a => Fin.ext ?_)
    match a with
    | ⟨0, _⟩ => show win0_0.index t (0 : Fin 2) * 2048 + 1 * (j 0).val = win0_4.index t (0 : Fin 2) * 2048 + 1 * (j 0).val; omega
    | ⟨1, _⟩ => show win0_0.index t (1 : Fin 2) * 128 + 1 * q.val = q.val; omega
  · intro q
    show V m c main_arg2 (((cfg0.win 2).blk t).view.emb (ix2 (j 0) q)) = V m c main_arg2 (ix2 ((((cfg0.win 4).blk t).view.emb j) 0) q)
    refine congrArg (V m c main_arg2) (funext fun a => Fin.ext ?_)
    match a with
    | ⟨0, _⟩ => show win0_2.index t (0 : Fin 2) * 2048 + 1 * (j 0).val = win0_4.index t (0 : Fin 2) * 2048 + 1 * (j 0).val; omega
    | ⟨1, _⟩ => show win0_2.index t (1 : Fin 2) * 128 + 1 * q.val = q.val; omega
  · intro k q
    show V m c main_arg1 (((cfg0.win 1).blk t).view.emb (ix3 (j 0) k q)) = V m c main_arg1 (ix3 ((((cfg0.win 4).blk t).view.emb j) 0) k q)
    refine congrArg (V m c main_arg1) (funext fun a => Fin.ext ?_)
    match a with
    | ⟨0, _⟩ => show win0_1.index t (0 : Fin 3) * 2048 + 1 * (j 0).val = win0_4.index t (0 : Fin 2) * 2048 + 1 * (j 0).val; omega
    | ⟨1, _⟩ => show win0_1.index t (1 : Fin 3) * 3 + 1 * k.val = k.val; omega
    | ⟨2, _⟩ => show win0_1.index t (2 : Fin 3) * 128 + 1 * q.val = q.val; omega
  · intro k q
    show V m c main_arg3 (((cfg0.win 3).blk t).view.emb (ix3 (j 0) k q)) = V m c main_arg3 (ix3 ((((cfg0.win 4).blk t).view.emb j) 0) k q)
    refine congrArg (V m c main_arg3) (funext fun a => Fin.ext ?_)
    match a with
    | ⟨0, _⟩ => show win0_3.index t (0 : Fin 3) * 2048 + 1 * (j 0).val = win0_4.index t (0 : Fin 2) * 2048 + 1 * (j 0).val; omega
    | ⟨1, _⟩ => show win0_3.index t (1 : Fin 3) * 3 + 1 * k.val = k.val; omega
    | ⟨2, _⟩ => show win0_3.index t (2 : Fin 3) * 128 + 1 * q.val = q.val; omega

/-- An index of the result array is in point `t`'s block iff each coordinate is in the block's range on its axis. -/
theorem mem_block (t : Fin cfg0.N) (i : S262144x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v0).slice (win0_4.rect t)).set ↔ _
  rw [View.set_slice_whole, Rect.mem_set_unit]
  exact Iff.rfl

/-- Every index of the result array is in the block of the point its row names: row r lies in block r / 2048. -/
theorem covered (i : S262144x256.Idx) :
    ∃ t : Fin cfg0.N, (cfg0.win 4).flush t = true ∧ i ∈ ((cfg0.win 4).blk t).view.set := by
  have hi0 : (i 0).val < 262144 := (i 0).isLt
  have hi1 : (i 1).val < 256 := (i 1).isLt
  obtain ⟨t, ht⟩ := index_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- The result array after the run is the tensor product of the whole argument arrays. -/
theorem final (c : Dev nD) : (dats m 0 c).arrAt 4 cfg0.N = wholeProd m c :=
  (dats m 0 c).arrAt_eq_of_cover 4 (wholeProd m c) (fun t _ => flushed_eq m c t) covered

/-- The kernel's run, read: every execution ends with the result array at the tensor product of the argument arrays as
    launched, and the arguments unchanged. -/
theorem run : θ_run defs (onTc (τ := τ) (main (F := Ideal))) ⟨m, fun _ => 0, ρ⟩ fun r => ∀ c : Dev nD,
      r.2.mem ((c : Thread nD τ).loc main_v0)
        = degreeZero 262144 (m ((c : Thread nD τ).loc main_arg0)) (m ((c : Thread nD τ).loc main_arg2))
            (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference's result, at the ideal instance, is the degree-zero tensor product of its four argument arrays.

  The reference multiplies the two scalar arrays, multiplies the two vector arrays and sums the product over the
  component axis starting from zero, and lays the two 128-wide results side by side along the column axis. Read
  at (r, n): for n < 128 the joined array reads its first part at (r, n), the scalars' product; for n ≥ 128 it
  reads its second part at (r, n - 128), which is 0 plus the sum over the three components k of the vectors'
  product at (r, k, n - 128). Adding zero in front of a sum of extended reals changes nothing.
-/
import proofs.«142776_j9062380994709_1_alg».proof.Proof.Gen.ReferenceIdeal.Read
import proofs.«142776_j9062380994709_1_alg».proof.Proof.DegreeZero
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.DegreeZero

/-- The reference's last stage is the tensor product of the four arguments, index by index. -/
theorem result_eq (x0 x2 : (⟨S262144x128, .f32⟩ : BufTy).Contents (Elt Ideal)) (x1 x3 : (⟨S262144x3x128, .f32⟩ : BufTy).Contents (Elt Ideal)) :
    val_main_v3 (F := Ideal) x0 x1 x2 x3 = degreeZero 262144 x0 x2 x1 x3 := by
  funext i
  unfold val_main_v3
  by_cases h : (i 1).val < 128
  · rw [degreeZero_left _ _ _ _ _ i h]
    refine (concatenate_pair_apply_left (1 : Fin 2) (val_main_v0 (F := Ideal) x0 x2) (val_main_v2 (F := Ideal) x1 x3)
      concatenates_S262144x128_S262144x128_S262144x256_d1 i rfl (ix2 (i 0) (chan (i 1).val)) ?_).trans ?_
    · intro b
      match b with
      | ⟨0, _⟩ => rfl
      | ⟨1, _⟩ => show (i 1).val % 128 = (i 1).val; omega
    · rfl
  · rw [degreeZero_right _ _ _ _ _ i h]
    refine (concatenate_pair_apply_right (1 : Fin 2) (val_main_v0 (F := Ideal) x0 x2) (val_main_v2 (F := Ideal) x1 x3)
      concatenates_S262144x128_S262144x128_S262144x256_d1 i rfl rfl (ix2 (i 0) (chan (i 1).val)) ?_ ?_).trans ?_
    · intro b hb
      match b with
      | ⟨0, _⟩ => rfl
      | ⟨1, _⟩ => exact absurd rfl hb
    · show (i 1).val % 128 + 128 = (i 1).val
      have hlt : (i 1).val < 256 := (i 1).isLt
      omega
    · rw [val_main_v2_apply, val_main_cst_apply]
      refine (congrArg (· + _) Ideal.ofBits_zero_f32).trans ?_
      rw [zero_add]
      refine Finset.sum_congr rfl fun k _ => ?_
      rw [val_main_v1_apply]
      have e : idx_main_v2 (ix2 (i 0) (chan (i 1).val)) k = ix3 (i 0) k (chan (i 1).val) :=
        funext fun a => Fin.ext (by match a with | ⟨0, _⟩ => rfl | ⟨1, _⟩ => rfl | ⟨2, _⟩ => rfl)
      rw [e]; rfl

end Cert.ReferenceIdeal.RefValue

end
-- ==== Proof.lean ====
/-
  The kernel and its reference compute the degree-zero part of a tensor product of two features, row by row: every
  token row carries a scalar part (128 channels) and a vector part (3 components by 128 channels) for a left and a
  right factor, and the result's 256 channels per row are the 128 products of the scalars followed by the 128 inner
  products of the vectors over their 3 components.

  The kernel walks the 262144 rows in 128 blocks of 2048 rows; in each block it multiplies the scalar blocks
  pointwise into the left half of the output block and sums the pointwise product of the vector blocks over the
  component axis into the right half. The reference does the same on whole arrays and joins the two halves along
  the column axis. Rows and channels never mix, so the kernel's blocks are the rows of one whole-array function,
  the same function the reference's three operations compose to. On the extended reals the only algebra used is
  that adding zero in front of a sum changes nothing, so the inputs' finiteness is never needed.

  The modules: the function itself and that rows do not interact (DegreeZero); the kernel body's output block is
  that function of its input blocks (BlockValue); the blocks written back fill the result array with that function
  of the argument arrays (ArrayValue); the reference's result is that function of its arguments (RefValue).
-/
import proofs.«142776_j9062380994709_1_alg».proof.Defs
import proofs.«142776_j9062380994709_1_alg».proof.Proof.Gen.Kernel
import proofs.«142776_j9062380994709_1_alg».proof.Proof.Gen.Kernel.Frame
import proofs.«142776_j9062380994709_1_alg».proof.Proof.Gen.KernelIdeal
import proofs.«142776_j9062380994709_1_alg».proof.Proof.Gen.KernelIdeal.Frame
import proofs.«142776_j9062380994709_1_alg».proof.Proof.Gen.KernelIdeal.Value
import proofs.«142776_j9062380994709_1_alg».proof.Proof.Gen.ReferenceIdeal
import proofs.«142776_j9062380994709_1_alg».proof.Proof.Gen.ReferenceIdeal.Run
import proofs.«142776_j9062380994709_1_alg».proof.Proof.Gen.ReferenceIdeal.Read
import proofs.«142776_j9062380994709_1_alg».proof.Proof.Gen.Pre_finite_inputs
import proofs.«142776_j9062380994709_1_alg».proof.Proof.ArrayValue
import proofs.«142776_j9062380994709_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the tensor product of those arguments:
    the kernel's result array block by block, the reference's as the composition of its operations. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
